-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S3x400000 : Shape := ⟨2, ![3, 400000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x400000 : S_.BroadcastsInDim S3x400000 (![] : Fin 0 → Fin S3x400000.rank)
  reducesTo_S3x400000_S_d0_1 : S3x400000.ReducesTo [0, 1] S_

variable [Facts]

def fn_part1 {F : FTy → Type} [FloatOps F] (main_v13 : IVec S_ 1) (main_v16 : IVec S3x400000 1) : IVec S_ 1 :=
  let main_c_5 : IVec S_ 1 := constantI S_ 1 1#1
  let main_v17 : IVec S_ 1 := (fun x v => Host.reduce IntOp.andi x v reducesTo_S3x400000_S_d0_1 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : FVec F S3x400000 .f32) (main_arg4 : IVec S3x400000 32) (main_arg5 : IVec S3x400000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x400000 .f32 := Host.absf main_arg3
  let main_cst_4 : FVec F S_ .f32 := constant S_ .f32 0x7F800000#32
  let main_v15 : FVec F S3x400000 .f32 := broadcastInDim S3x400000 ![] bcast_S_S3x400000 main_cst_4
  let main_v16 : IVec S3x400000 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S3x400000 : Shape := ⟨2, ![3, 400000]⟩
abbrev S10000x128 : Shape := ⟨2, ![10000, 128]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩

abbrev nBuf : Space → Nat
  | .hbm => 26
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S3x400000, .f32⟩
  | .hbm, ⟨4, _⟩ => ⟨S3x400000, .i32⟩
  | .hbm, ⟨5, _⟩ => ⟨S3x400000, .i32⟩
  | .hbm, ⟨6, _⟩ => ⟨S100000x128, .f32⟩
  | .hbm, ⟨7, _⟩ => ⟨S1200000, .i32⟩
  | .hbm, ⟨8, _⟩ => ⟨S1200000, .i32⟩
  | .hbm, ⟨9, _⟩ => ⟨S1200000, .f32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x128, .f32⟩
  | .hbm, ⟨19, _⟩ => ⟨S1200000x1, .f32⟩
  | .hbm, ⟨20, _⟩ => ⟨S1200000x128, .f32⟩
  | .hbm, ⟨21, _⟩ => ⟨S1200000x128, .f32⟩
  | .hbm, ⟨22, _⟩ => ⟨S_, .f32⟩
  | .hbm, ⟨23, _⟩ => ⟨S100000x128, .f32⟩
  | .hbm, ⟨24, _⟩ => ⟨S1200000x1, .i32⟩
  | .hbm, ⟨25, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S3x400000_S1200000 : S3x400000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x128_0_1 : S1200000x1.BroadcastsInDim S1200000x128 (![0, 1] : Fin 2 → Fin S1200000x128.rank)
  bcast_S_S100000x128 : S_.BroadcastsInDim S100000x128 (![] : Fin 0 → Fin S100000x128.rank)
  dot_S10000x128_S128x128_S10000x128_1_0_0_1_n_n_wf : DotDims.WF S10000x128 S128x128 S10000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S3x400000 : Shape := ⟨2, ![3, 400000]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S3x400000, .f32⟩
  | .hbm, ⟨4, _⟩ => ⟨S3x400000, .i32⟩
  | .hbm, ⟨5, _⟩ => ⟨S3x400000, .i32⟩
  | .hbm, ⟨6, _⟩ => ⟨S100000x128, .f32⟩
  | .hbm, ⟨7, _⟩ => ⟨S1200000, .i32⟩
  | .hbm, ⟨8, _⟩ => ⟨S1200000, .i32⟩
  | .hbm, ⟨9, _⟩ => ⟨S1200000, .f32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x128, .f32⟩
  | .hbm, ⟨19, _⟩ => ⟨S1200000x1, .f32⟩
  | .hbm, ⟨20, _⟩ => ⟨S1200000x128, .f32⟩
  | .hbm, ⟨21, _⟩ => ⟨S1200000x128, .f32⟩
  | .hbm, ⟨22, _⟩ => ⟨S_, .f32⟩
  | .hbm, ⟨23, _⟩ => ⟨S100000x128, .f32⟩
  | .hbm, ⟨24, _⟩ => ⟨S1200000x1, .i32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  shapeCasts_S3x400000_S1200000 : S3x400000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x128_0_1 : S1200000x1.BroadcastsInDim S1200000x128 (![0, 1] : Fin 2 → Fin S1200000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf

class Facts : Prop extends Facts₀ where

variable [Facts]
-- ==== Proof.Dense.lean ====
/-
  The dense half of the sparse aggregation, as ONE function of the two argument arrays.

  Both programs first form the product of the node features `h` (100000 rows of 128) with the square
  weight `W` (128 by 128): entry (r, j) is the sum over k of h[r, k] · W[k, j].  On the extended
  reals that is a sum of 128 products with nothing rounded in between, so it does not matter whether
  the rows are taken ten thousand at a time or all at once, nor whether the operands passed through
  a narrower float format on the way (a change of format is the identity there).
-/
import Idealize.ShloMosaic.PureOps.Ideal
import Idealize.ShloMosaic.Lib.ValueIdx

noncomputable section

open scoped BigOperators

namespace Cert.Spmm

open Idealize.ShloMosaic Idealize.ShloMosaic.ValueIdx

/-- Entry (r, j) of `h · W`: row r of `h` against column j of `W`. -/
def dense (h : (⟨2, ![100000, 128]⟩ : Shape).Idx → EReal) (W : (⟨2, ![128, 128]⟩ : Shape).Idx → EReal) :
    (⟨2, ![100000, 128]⟩ : Shape).Idx → EReal :=
  fun i => ∑ k : Fin 128, h (ix2 (i 0) k) * W (ix2 k (i 1))

theorem dense_apply (h : (⟨2, ![100000, 128]⟩ : Shape).Idx → EReal) (W : (⟨2, ![128, 128]⟩ : Shape).Idx → EReal)
    (r : Fin 100000) (j : Fin 128) :
    dense h W (ix2 r j) = ∑ k : Fin 128, h (ix2 r k) * W (ix2 k j) := rfl

end Cert.Spmm

end
-- ==== Proof.KernelDense.lean ====
/-
  What the kernel's region leaves in its output array, at the extended reals.

  The region walks the 100000 rows of `h` ten thousand at a time (ten grid points).  At point t the
  body loads rows 10000·t … 10000·t + 9999 of `h` and the whole of `W`, multiplies them into a zero
  accumulator and stores the product as block t of the output.  Narrowing the operands to a shorter
  float format is the identity on the extended reals, and the accumulator contributes 0, so entry
  (p, q) of the stored block is the sum over k of h[10000·t + p, k] · W[k, q]: block t of the one
  function `Cert.Spmm.dense h W`.  The ten blocks tile the array, so after the region the array IS
  that function.
-/
import proofs.«418782_j7928509628753_3_alg».proof.Proof.Gen.KernelIdeal.Frame
import proofs.«418782_j7928509628753_3_alg».proof.Proof.Dense
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DenseValue

open Cert.KernelIdeal Cert.KernelIdeal.Gen Idealize.ShloMosaic Idealize.ShloMosaic.TcCoe Idealize.ShloMosaic.ValueIdx
open Idealize.SL.Sem
open Idealize.ShloMosaic.Pipeline (Dat)

/-! ## The body's product at an entry of the block -/

/-- The left operand is read at the output's row, -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- and at the contracted coordinate; -/
theorem lhs_contr (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right operand at the contracted coordinate, -/
theorem rhs_contr (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- and at the output's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (p, q) of what the body stores: row p of the loaded rows against column q of the loaded weight,
    128 products summed from 0 (the narrowing of both operands is the identity on the extended reals). -/
theorem block_product (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  refine (Ideal.matmul_constant_zero_apply dot_S10000x128_S128x128_S10000x128_1_0_0_1_n_n none (truncf (F := Ideal) .bf16 x0 _) (truncf (F := Ideal) .bf16 x1 _) (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_contr _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_contr _ _).trans hk
    | ⟨1, _⟩ => exact rhs_col _ _)
  rw [el, er]
  rfl

/-! ## The blocks the body reads and writes, as parts of the arrays -/

variable (m : (ℓ : Loc nD τ sig) → Buf (Elt Ideal) ℓ)

/-- The node features and the weight as the region finds them, -/
abbrev hArr (c : Dev nD) : S100000x128.Idx → EReal := V m c main_arg0
abbrev wArr (c : Dev nD) : S128x128.Idx → EReal := V m c main_arg1
/-- and the rows and the weight the body loads at point `t`. -/
abbrev hBlk (c : Dev nD) (t : Fin cfg0.N) : Vec Ideal S10000x128 .f32 := iblk m c 0 t
abbrev wBlk (c : Dev nD) (t : Fin cfg0.N) : Vec Ideal S128x128 .f32 := iblk m c 1 t

theorem hz : (![0, 0] : Fin 2 → Nat) = fun _ => 0 := funext fun a => by fin_cases a <;> rfl

/-- The printed index maps over the ten points: the rows' window and the output's window are both at block (t, 0),
    the weight's window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the rows loaded at point t is row 10000·t + p of `h`. -/
theorem hBlk_apply (c : Dev nD) (t : Fin cfg0.N) (p : Fin 10000) (k : Fin 128) (i : S100000x128.Idx)
    (h0 : (i 0).val = t.val * 10000 + p.val) (h1 : (i 1).val = k.val) :
    hBlk m c t (ix2 p k) = hArr m c i := by
  obtain ⟨e0, e1, -, -, -, -⟩ := idx_facts t
  show V m c main_arg0 (((cfg0.win 0).blk t).view.emb (ix2 p k)) = V m c main_arg0 i
  refine congrArg _ ?_
  funext a; apply Fin.ext
  match a with
  | ⟨0, _⟩ => show win0_0.index t (0 : Fin 2) * 10000 + 1 * p.val = (i 0).val; omega
  | ⟨1, _⟩ => show win0_0.index t (1 : Fin 2) * 128 + 1 * k.val = (i 1).val; omega

/-- The weight loaded at any point is the whole of `W`. -/
theorem wBlk_apply (c : Dev nD) (t : Fin cfg0.N) (k : Fin 128) (q : Fin 128) (i : S128x128.Idx)
    (h0 : (i 0).val = k.val) (h1 : (i 1).val = q.val) :
    wBlk m c t (ix2 k q) = wArr m c i := by
  obtain ⟨-, -, e2, e3, -, -⟩ := idx_facts t
  show V m c main_arg1 (((cfg0.win 1).blk t).view.emb (ix2 k q)) = V m c main_arg1 i
  refine congrArg _ ?_
  funext a; apply Fin.ext
  match a with
  | ⟨0, _⟩ => show win0_1.index t (0 : Fin 2) * 128 + 1 * k.val = (i 0).val; omega
  | ⟨1, _⟩ => show win0_1.index t (1 : Fin 2) * 128 + 1 * q.val = (i 1).val; omega

/-! ## What point `t` writes back, and the array after the region -/

/-- WHAT POINT `t` WRITES BACK is block t of the dense product of the arrays as the region finds them. -/
theorem flushed_eq (c : Dev nD) (t : Fin cfg0.N) :
    (dats m 0 c).flushed 2 t = ((cfg0.win 2).blk t).view.read (Elt Ideal) (Cert.Spmm.dense (hArr m c) (wArr m c)) := by
  show (cfg0.win 2).cut (grid0.coords t) ((dats m 0 c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts t
  funext j
  obtain ⟨p, q, rfl⟩ : ∃ (p : Fin 10000) (q : Fin 128), j = ix2 p q := ⟨j 0, j 1, eq_ix2 j⟩
  show k0_pay1 (F := Ideal) (hBlk m c t) (wBlk m c t) (ix2 p q)
    = Cert.Spmm.dense (hArr m c) (wArr m c) (((cfg0.win 2).blk t).view.emb (ix2 p q))
  refine (block_product (hBlk m c t) (wBlk m c t) p q).trans ?_
  unfold Cert.Spmm.dense
  refine Finset.sum_congr rfl fun k _ => ?_
  refine congrArg₂ (· * ·) (hBlk_apply m c t p k _ ?_ rfl) (wBlk_apply m c t k q _ rfl ?_)
  · show win0_2.index t (0 : Fin 2) * 10000 + 1 * p.val = t.val * 10000 + p.val; omega
  · show win0_2.index t (1 : Fin 2) * 128 + 1 * q.val = q.val; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Each of the ten row blocks is some point's. -/
theorem idx_onto : ∀ b : Fin 10, ∃ t : Fin cfg0.N, t.val = b.val :=
  (by decide +kernel : ∀ b : Fin 10, ∃ t : Fin grid0.N, t.val = b.val)

/-- THE COVER: row r lies in the block of point r / 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  obtain ⟨-, -, -, -, e4, e5⟩ := idx_facts t
  have ht' : t.val = (i 0).val / 10000 := ht
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE ARRAY after the region: the dense product of the two argument arrays. -/
theorem final (c : Dev nD) : (dats m 0 c).arrAt 2 cfg0.N
    = Cert.Spmm.dense (m ((c : Thread nD τ).loc main_arg0)) (m ((c : Thread nD τ).loc main_arg1)) :=
  (dats m 0 c).arrAt_eq_of_cover 2 (Cert.Spmm.dense (hArr m c) (wArr m c)) (fun t _ => flushed_eq m c t) cover

end Cert.KernelIdeal.DenseValue

end
-- ==== Proof.KernelTail.lean ====
/-
  The kernel's whole program at the extended reals: the dense product, then the sparse aggregation.

  After the region the program flattens the three edge lists to 1200000 edges (row, col, val), reads a
  negative column index from the end (col + 100000 when col < 0), gathers row `col` of the dense
  product for every edge, scales it by the edge's value, and adds the scaled rows into a zero array at
  the edges' rows.  All of that is carried here as ONE function `aggregate` of the dense product and the
  three edge arrays and is never opened: the two programs apply the same operations, so it is enough
  that the arrays they are applied to agree.  What the region hands to it is the output array after the
  ten write-backs, which is `Cert.Spmm.dense h W`.
-/
import proofs.«418782_j7928509628753_3_alg».proof.Proof.KernelDense
import Idealize.ShloMosaic.Lib.StableHlo.Run

set_option maxRecDepth 16384

noncomputable section

namespace Cert.KernelIdeal.TailValue

open Cert.KernelIdeal Cert.KernelIdeal.Gen Idealize.ShloMosaic Idealize.ShloMosaic.TcCoe
open Idealize.SL.Sem Idealize.ShloMosaic.StableHlo

/-- The sparse half, as this program prints it: each of the 1200000 edges adds its value times row `col` of `hw`
    into row `row` of a zero array. -/
def aggregate (hw : (⟨S100000x128, .f32⟩ : BufTy).Contents (Elt Ideal)) (vals : (⟨S3x400000, .f32⟩ : BufTy).Contents (Elt Ideal))
    (rows cols : (⟨S3x400000, .i32⟩ : BufTy).Contents (Elt Ideal)) : (⟨S100000x128, .f32⟩ : BufTy).Contents (Elt Ideal) :=
  Host.scatterAdd scatter_S100000x128_S1200000x1_S1200000x128_1_0_0_1
    (broadcastInDim S100000x128 ![] bcast_S_S100000x128 (constant (F := Ideal) S_ .f32 0x00000000#32))
    (broadcastInDim S1200000x1 ![0] bcast_S1200000_S1200000x1_0 (shapeCast _ rows shapeCasts_S3x400000_S1200000))
    (mulf
      (Host.gather gather_S100000x128_S1200000x1_S1200000x128_1_0_n_n_0_1_1128 hw
        (broadcastInDim S1200000x1 ![0] bcast_S1200000_S1200000x1_0
          (select
            (cmpi .slt (shapeCast _ cols shapeCasts_S3x400000_S1200000) (broadcastInDim S1200000 ![] bcast_S_S1200000 (constantI S_ 32 0#32)))
            (addi (shapeCast _ cols shapeCasts_S3x400000_S1200000) (broadcastInDim S1200000 ![] bcast_S_S1200000 (constantI S_ 32 100000#32)))
            (shapeCast _ cols shapeCasts_S3x400000_S1200000))))
      (broadcastInDim S1200000x128 ![0, 1] bcast_S1200000x1_S1200000x128_0_1
        (broadcastInDim S1200000x1 ![0] bcast_S1200000_S1200000x1_0 (shapeCast _ vals shapeCasts_S3x400000_S1200000))))

variable (m : (ℓ : Loc nD τ sig) → Buf (Elt Ideal) ℓ) (ρ : Dev nD → PrngReg)

/-- The lines after the region find the region's output array at the dense product, -/
theorem tail_reads_dense (c : Dev nD) :
    Pipeline.withArrays (cfgs 0).spec c (V0 m c) (fun w => (dats m 0 c).arrAt w (cfgs 0).N) (Proc.devRef .tc main_v0)
      = Cert.Spmm.dense (m ((c : Thread nD τ).loc main_arg0)) (m ((c : Thread nD τ).loc main_arg1)) :=
  (Pipeline.withArrays_arr spec0 launch0.win.arr_inj c _ _ 2).trans (DenseValue.final m c)

/-- and the three edge arrays as launched (no window stages them). -/
theorem tail_reads_vals (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans (V_main_arg3 m c)
theorem tail_reads_rows (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans (V_main_arg4 m c)
theorem tail_reads_cols (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans (V_main_arg5 m c)

/-- THE RESULT: the program's last buffer holds the aggregation of the dense product of the arguments. -/
theorem result_eq (c : Dev nD) :
    Pipeline.afterTail₀ cfgs (dats m) 0 (V0 m) [hostOps1] c main_v16
      = aggregate (Cert.Spmm.dense (m ((c : Thread nD τ).loc main_arg0)) (m ((c : Thread nD τ).loc main_arg1)))
          (m ((c : Thread nD τ).loc main_arg3)) (m ((c : Thread nD τ).loc main_arg4)) (m ((c : Thread nD τ).loc main_arg5)) := by
  unfold Pipeline.afterTail₀
  show StableHlo.after hostOps1 _ (Proc.devRef .tc main_v16) = _
  after_results
  rw [tail_reads_dense m c, tail_reads_vals m c, tail_reads_rows m c, tail_reads_cols m c]
  rfl

/-- The run, read: every weakly fair execution ends with the result at the aggregation of the dense product and the
    six arguments as launched. -/
theorem run : θ_run defs (onTc (τ := τ) (main (F := Ideal))) ⟨m, fun _ => 0, ρ⟩ fun r => ∀ c : Dev nD,
      r.2.mem ((c.tc : Thread nD τ).loc main_v16)
        = aggregate (Cert.Spmm.dense (m ((c : Thread nD τ).loc main_arg0)) (m ((c : Thread nD τ).loc main_arg1)))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v16 (Pipeline.mem_restRefs_of main_v16 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.TailValue

end
-- ==== Proof.RefDense.lean ====
/-
  The reference's dense half, at the extended reals.

  The reference forms `h · W` in one host contraction over the 128 columns of `h` / rows of `W`.
  Read at entry (r, j) it is the sum over k of h[r, k] · W[k, j] — the function `Cert.Spmm.dense h W` —
  once the operand indices of the contraction are named by their coordinates.
-/
import proofs.«418782_j7928509628753_3_alg».proof.Proof.Gen.ReferenceIdeal.Read
import proofs.«418782_j7928509628753_3_alg».proof.Proof.Dense

noncomputable section

open scoped BigOperators

namespace Cert.ReferenceIdeal.DenseValue

open Cert.ReferenceIdeal Cert.ReferenceIdeal.Gen Cert.ReferenceIdeal.Read Idealize.ShloMosaic Idealize.ShloMosaic.ValueIdx

/-- The host contraction of `h` with `W` is the dense product, entry by entry. -/
theorem dot_is_dense (h : FVec Ideal S100000x128 .f32) (W : FVec Ideal S128x128 .f32) :
    Host.dotGeneral dot_S100000x128_S128x128_S100000x128_1_0_0_1_n_n none h W = Cert.Spmm.dense h W := by
  funext i
  show val_main_v0 (F := Ideal) h W i = _
  rw [val_main_v0_apply]
  unfold Cert.Spmm.dense
  refine Finset.sum_congr rfl fun k _ => ?_
  have el : lidx_main_v0 i k = ix2 (i 0) k := funext fun a => Fin.ext (by
    match a with
    | ⟨0, _⟩ => rfl
    | ⟨1, _⟩ => rfl)
  have er : ridx_main_v0 i k = ix2 k (i 1) := funext fun a => Fin.ext (by
    match a with
    | ⟨0, _⟩ => rfl
    | ⟨1, _⟩ => rfl)
  rw [el, er]
  rfl

end Cert.ReferenceIdeal.DenseValue

end
-- ==== Proof.lean ====
/-
  Sparse aggregation of a dense product: `out = Σ_edges val · (h · W)[col, ·]` scattered into the edges' rows.

  The kernel's program computes the dense product `h · W` in a region that takes the 100000 rows of `h`
  ten thousand at a time, narrowing both operands to a shorter float format before a product accumulated
  from zero; the reference computes it in one host contraction.  On the extended reals a change of float
  format is the identity and each entry of either product is the same sum of 128 products
  (`Cert.Spmm.dense`): no law beyond reading both sums at an index is needed, so the precondition
  (finite inputs) is never opened.  After the product both programs apply the same lines — flatten the
  edge lists, wrap negative column indices, gather, scale, scatter-add into zeros — which are carried as
  one function (`aggregate`) of the product and the edge arrays, equal on both sides because its
  operands are.

  Proof/Dense.lean        the dense product as one function of the two arrays
  Proof/KernelDense.lean  the region's output array is that function (block by block, then the cover)
  Proof/KernelTail.lean   the kernel program's result: the aggregation of that array
  Proof/RefDense.lean     the reference's contraction is that function
  The reference's run and its contraction read at an index are the generated modules; the three frames
  are the generated frames (the reference's is its run with the result dropped); the idealization rewrote
  nothing, so `preserves` has nothing to state.
-/
import proofs.«418782_j7928509628753_3_alg».proof.Defs
import proofs.«418782_j7928509628753_3_alg».proof.Proof.Gen.Kernel
import proofs.«418782_j7928509628753_3_alg».proof.Proof.Gen.Kernel.Skeleton
import proofs.«418782_j7928509628753_3_alg».proof.Proof.Gen.Kernel.Launch
import proofs.«418782_j7928509628753_3_alg».proof.Proof.Gen.Kernel.Points
import proofs.«418782_j7928509628753_3_alg».proof.Proof.Gen.Kernel.Frame
import proofs.«418782_j7928509628753_3_alg».proof.Proof.Gen.KernelIdeal
import proofs.«418782_j7928509628753_3_alg».proof.Proof.Gen.KernelIdeal.Skeleton
import proofs.«418782_j7928509628753_3_alg».proof.Proof.Gen.KernelIdeal.Launch
import proofs.«418782_j7928509628753_3_alg».proof.Proof.Gen.KernelIdeal.Points
import proofs.«418782_j7928509628753_3_alg».proof.Proof.Gen.KernelIdeal.Frame
import proofs.«418782_j7928509628753_3_alg».proof.Proof.Gen.ReferenceIdeal
import proofs.«418782_j7928509628753_3_alg».proof.Proof.Gen.Pre_finite_inputs
import proofs.«418782_j7928509628753_3_alg».proof.Proof.Gen.ReferenceIdeal.Run
import proofs.«418782_j7928509628753_3_alg».proof.Proof.Gen.ReferenceIdeal.Read
import proofs.«418782_j7928509628753_3_alg».proof.Proof.KernelTail
import proofs.«418782_j7928509628753_3_alg».proof.Proof.RefDense
import Idealize.ShloMosaic.Adequacy
import Idealize.ShloMosaic.Init

noncomputable section

namespace Cert.Proof

open Idealize.ShloMosaic Idealize.SL.Sem

/-- Both programs end with the aggregation of the dense product of the same arguments: the kernel's by its run read
    through the region, the reference's by its run with the host contraction read as the dense product. -/
theorem algebraic : Cert.algebraic_KernelIdeal_ReferenceIdeal := by
  intro m ρ m' ρ' _ hagree
  refine ⟨_, Cert.KernelIdeal.TailValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.DenseValue.dot_is_dense, (hagree c).1, (hagree c).2.1, (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
